-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32 : Shape := ⟨3, ![8, 4096, 32]⟩
abbrev S8x4096x4096 : Shape := ⟨3, ![8, 4096, 4096]⟩
abbrev S_ : Shape := ⟨0, ![]⟩

class Facts : Prop where
  bcast_S_S8x4096x32 : S_.BroadcastsInDim S8x4096x32 (![] : Fin 0 → Fin S8x4096x32.rank)
  reducesTo_S8x4096x32_S_d0_1_2 : S8x4096x32.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S8x4096x32 .f32) (main_arg1 : FVec F S8x4096x4096 .f32) : IVec S_ 1 :=
  let main_v0 : FVec F S8x4096x32 .f32 := Host.absf main_arg0
  let main_cst : FVec F S_ .f32 := constant S_ .f32 0x7F800000#32
  let main_v1 : FVec F S8x4096x32 .f32 := broadcastInDim S8x4096x32 ![] bcast_S_S8x4096x32 main_cst
  let main_v2 : IVec S8x4096x32 1 := cmpf .olt main_v0 main_v1
  let main_c : IVec S_ 1 := constantI S_ 1 1#1
  let main_v3 : IVec S_ 1 := (fun x v => Host.reduce IntOp.andi x v reducesTo_S8x4096x32_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S8x4096x32 : Shape := ⟨3, ![8, 4096, 32]⟩
abbrev S8x4096x4096 : Shape := ⟨3, ![8, 4096, 4096]⟩
abbrev S1x512x4096 : Shape := ⟨3, ![1, 512, 4096]⟩
abbrev S1x4096x32 : Shape := ⟨3, ![1, 4096, 32]⟩
abbrev S1x512x32 : Shape := ⟨3, ![1, 512, 32]⟩
abbrev S512x4096 : Shape := ⟨2, ![512, 4096]⟩
abbrev S4096x32 : Shape := ⟨2, ![4096, 32]⟩
abbrev S512x32 : Shape := ⟨2, ![512, 32]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x32, .f32⟩
  | .hbm, ⟨1, _⟩ => ⟨S8x4096x4096, .f32⟩
  | .hbm, ⟨2, _⟩ => ⟨S8x4096x32, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x32, .f32⟩
  | .local _ .vmem, ⟨3, _⟩ => ⟨S1x4096x32, .f32⟩
  | .local _ .vmem, ⟨4, _⟩ => ⟨S1x512x32, .f32⟩
  | .local _ .vmem, ⟨5, _⟩ => ⟨S1x512x32, .f32⟩
  | _, _ => ⟨S8x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  dot_S512x4096_S4096x32_S512x32_1_0_0_1_n_n_wf : DotDims.WF S512x4096 S4096x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x4096x4096.size a
  hwx0_0 : ∀ i : grid0.Coords, EltTy.bits .f32 = 32 ∨ (Rect.block (s := S8x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S8x4096x32.size a
  hwx0_1 : ∀ i : grid0.Coords, EltTy.bits .f32 = 32 ∨ (Rect.block (s := S8x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S8x4096x32.size a
  hwx0_2 : ∀ i : grid0.Coords, EltTy.bits .f32 = 32 ∨ (Rect.block (s := S8x4096x32) S1x512x32.size (cc0_transform_2 i) (hinb0_2 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x32 : Shape := ⟨3, ![8, 4096, 32]⟩
abbrev S8x4096x4096 : Shape := ⟨3, ![8, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x32, .f32⟩
  | .hbm, ⟨1, _⟩ => ⟨S8x4096x4096, .f32⟩
  | .hbm, ⟨2, _⟩ => ⟨S8x4096x32, .f32⟩
  | _, _ => ⟨S8x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x4096_S8x4096x32_S8x4096x32_2_1_1_2_0_0_wf : DotDims.WF S8x4096x4096 S8x4096x32 S8x4096x32 [2] [1] [1] [2] [0] [0]

variable [Facts₀]

def dot_S8x4096x4096_S8x4096x32_S8x4096x32_2_1_1_2_0_0 : DotDims S8x4096x4096 S8x4096x32 S8x4096x32 where
  lhsContracting := [2]
  rhsContracting := [1]
  lhsNonContracting := [1]
  rhsNonContracting := [2]
  lhsBatch := [0]
  rhsBatch := [0]
  wf := dot_S8x4096x4096_S8x4096x32_S8x4096x32_2_1_1_2_0_0_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.BlockProduct.lean ====
/-
  One grid point's block of the result, entry by entry.

  At a grid point the body holds a 1 × 512 × 4096 block of the weights and a 1 × 4096 × 32 block of the features. It drops
  the leading unit axis of each, changes their format (which changes no value on the extended reals), multiplies the
  512 × 4096 matrix by the 4096 × 32 matrix into an all-zero accumulator, and puts the unit axis back. So entry (0, r, d)
  of what it stores is

      ∑ q, W (0, r, q) · X (0, q, d),        q over the 4096 contracted positions,

  with W and X the two loaded blocks: the plain matrix product read at (r, d), with each factor read through the cast
  that dropped its unit axis.
-/
import proofs.«107872_j19172734010021_1_alg».proof.Proof.Gen.KernelIdeal.Skeleton
import proofs.«107872_j19172734010021_1_alg».proof.Proof.LibDotPlain
import Idealize.ShloMosaic.Lib.ValueLayout
import Idealize.ShloMosaic.Lib.ValueIdx

noncomputable section

open scoped BigOperators

namespace Cert.KernelIdeal.BlockProduct

open Cert.KernelIdeal Cert.KernelIdeal.Gen Idealize.ShloMosaic Idealize.ShloMosaic.ValueIdx

/-- The printed dimension numbers of the body's product are those of the plain 512 × 4096 by 4096 × 32 product. -/
theorem dims_plain [Cert.KernelIdeal.Facts] : dot_S512x4096_S4096x32_S512x32_1_0_0_1_n_n = DotDims.plain 512 4096 32 := rfl

/-- Entry (u, r, d) of the block the body stores, from the loaded weights block W and the loaded features block X: the
    sum over the contracted axis of W (0, r, q) · X (0, q, d). -/
theorem stored_entry [Cert.KernelIdeal.Facts] (W : Vec Ideal S1x512x4096 .f32) (X : Vec Ideal S1x4096x32 .f32)
    (u : Fin 1) (r : Fin 512) (d : Fin 32) :
    k0_pay1 (F := Ideal) W X (ix3 u r d) = ∑ q : Fin 4096, W (ix3 (0 : Fin 1) r q) * X (ix3 (0 : Fin 1) q d) := by
  unfold k0_pay1
  refine (shapeCast_ab_1ab_apply _ _ u r d).trans ?_
  refine (Cert.LibDotPlain.matmul_zero_plain 512 4096 32 none _ _ r d).trans ?_
  refine Finset.sum_congr rfl fun q _ => ?_
  refine congrArg₂ (· * ·) ?_ ?_
  · exact shapeCast_1ab_ab_apply W shapeCasts_S1x512x4096_S512x4096 r q
  · exact shapeCast_1ab_ab_apply X shapeCasts_S1x4096x32_S4096x32 q d

end Cert.KernelIdeal.BlockProduct
-- ==== Proof.BatchedProduct.lean ====
/-
  What both programs compute, as one function of the two argument arrays.

  For a batch b, a row n and a column d the result is the row n of the matrix a[b] against the column d of the matrix
  x[b]:

      out (b, n, d) = ∑ q, a (b, n, q) · x (b, q, d),        q over the 4096 positions of the contracted axis.

  It is one sum of products on the extended reals. Nothing about the sum's order or grouping is part of the definition,
  and no law of the extended reals beyond renaming the index set of a sum is needed to bring either program to it.
-/
import Idealize.ShloMosaic.PureOps.Ideal
import Idealize.ShloMosaic.Lib.ValueIdx

noncomputable section

open scoped BigOperators

namespace Cert.BatchedProduct

open Idealize.ShloMosaic Idealize.ShloMosaic.ValueIdx

/-- The array of adjacency weights: 8 batches of 4096 × 4096. -/
abbrev SA : Shape := ⟨3, ![8, 4096, 4096]⟩
/-- The array of features, and the result: 8 batches of 4096 × 32. -/
abbrev SX : Shape := ⟨3, ![8, 4096, 32]⟩

/-- The batched matrix product at one entry: the sum over the contracted axis of the products. -/
def entry (a : FVec Ideal SA .f32) (x : FVec Ideal SX .f32) (b : Fin 8) (n : Fin 4096) (d : Fin 32) : EReal :=
  ∑ q : Fin 4096, a (ix3 b n q) * x (ix3 b q d)

/-- The batched matrix product as a whole array: entry (b, n, d) of the result is `entry a x b n d`. -/
def product (a : FVec Ideal SA .f32) (x : FVec Ideal SX .f32) : FVec Ideal SX .f32 :=
  fun i => entry a x (i 0) (i 1) (i 2)

/-- The whole array read at an index given by its coordinates. -/
theorem product_apply (a : FVec Ideal SA .f32) (x : FVec Ideal SX .f32) (b : Fin 8) (n : Fin 4096) (d : Fin 32) :
    product a x (ix3 b n d) = entry a x b n d := rfl

end Cert.BatchedProduct
-- ==== Proof.ArrayProduct.lean ====
/-
  The kernel's result array is the batched matrix product.

  The grid has 8 × 8 points. Point (b, i) holds rows 512·i … 512·i + 511 of the weights of batch b (all 4096 columns), the
  whole 4096 × 32 features matrix of batch b, and writes back rows 512·i … 512·i + 511 of the result of batch b. By the
  entry formula of the stored block, row r and column d of what the point writes is

      ∑ q, a (b, 512·i + r, q) · x (b, q, d),

  which is entry (b, 512·i + r, d) of the batched product: the point writes its own block of the product. The 64 blocks
  are the 8 batches times the 8 groups of 512 rows, so every index of the result lies in exactly one of them (row n of
  batch b in the block of point (b, n / 512)), and the array after the run is the product everywhere.
-/
import proofs.«107872_j19172734010021_1_alg».proof.Proof.Gen.KernelIdeal.Value
import proofs.«107872_j19172734010021_1_alg».proof.Proof.BlockProduct
import proofs.«107872_j19172734010021_1_alg».proof.Proof.BatchedProduct
import Idealize.ShloMosaic.Lib.Pipeline.Value

noncomputable section

open scoped BigOperators

namespace Cert.KernelIdeal.ArrayProduct

open Cert.KernelIdeal Cert.KernelIdeal.Gen Idealize.ShloMosaic Idealize.ShloMosaic.TcCoe Idealize.SL.Sem
open Idealize.ShloMosaic.ValueIdx Cert.BatchedProduct
open Idealize.ShloMosaic.Pipeline (Dat)

variable (m : (ℓ : Loc nD τ sig) → Buf (Elt Ideal) ℓ) (ρ : Dev nD → PrngReg)

/-- The weights as the region finds them on core c: 8 batches of 4096 × 4096. -/
abbrev weights (c : Dev nD) : FVec Ideal SA .f32 := V m c main_arg1
/-- The features as the region finds them on core c: 8 batches of 4096 × 32. -/
abbrev features (c : Dev nD) : FVec Ideal SX .f32 := V m c main_arg0

theorem zero_offsets : (![0, 0, 0] : Fin 3 → Nat) = fun _ => 0 := funext fun a => by fin_cases a <;> rfl

/-- The block indices over the grid: the weights' block moves with the result's block on the batch and row axes and
    takes all columns; the features' block moves with it on the batch axis and is the whole matrix; the result's block
    index is a batch below 8, a row group below 8, and all columns. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 7
    ∧ win0_2.index t (1 : Fin 3) ≤ 7
    ∧ win0_2.index t (2 : Fin 3) = 0 :=
  (by decide +kernel : ∀ t : Fin grid0.N, _)

/-- Every batch and every group of 512 rows is some point's block of the result. -/
theorem block_of : ∀ (b : Fin 8) (g : Fin 8), ∃ t : Fin cfg0.N, win0_2.index t = ![b.val, g.val, 0] :=
  (by decide +kernel : ∀ (b : Fin 8) (g : Fin 8), ∃ t : Fin grid0.N, win0_2.index t = ![b.val, g.val, 0])

/-- What point t writes back is its block of the batched product of the weights and the features. -/
theorem written_block (c : Dev nD) (t : Fin cfg0.N) :
    (dats m 0 c).flushed 2 t
      = ((cfg0.win 2).blk t).view.read (Elt Ideal) (product (weights m c) (features m c)) := by
  rw [Cert.KernelIdeal.Value.flushed2]
  unfold out0_2
  rw [View.canon_unit_zero zero_offsets]
  simp only [View.ld_unit_zero (S := S1x512x4096) zero_offsets, View.ld_unit_zero (S := S1x4096x32) zero_offsets]
  obtain ⟨e00, e01, e02, e10, e11, e12, _, _, e22⟩ := block_indices t
  funext j
  obtain ⟨u, r, d, rfl⟩ : ∃ (u : Fin 1) (r : Fin 512) (d : Fin 32), j = ix3 u r d := ⟨j 0, j 1, j 2, eq_ix3 j⟩
  show k0_pay1 (F := Ideal) (iblk m c 0 t) (iblk m c 1 t) (ix3 u r d)
    = product (weights m c) (features m c) (((cfg0.win 2).blk t).view.emb (ix3 u r d))
  refine (Cert.KernelIdeal.BlockProduct.stored_entry (iblk m c 0 t) (iblk m c 1 t) u r d).trans ?_
  show _ = ∑ q : Fin 4096,
      weights m c (ix3 ((((cfg0.win 2).blk t).view.emb (ix3 u r d)) 0) ((((cfg0.win 2).blk t).view.emb (ix3 u r d)) 1) q)
      * features m c (ix3 ((((cfg0.win 2).blk t).view.emb (ix3 u r d)) 0) q ((((cfg0.win 2).blk t).view.emb (ix3 u r d)) 2))
  refine Finset.sum_congr rfl fun q _ => ?_
  have hu : u.val = 0 := by omega
  have hw : ((cfg0.win 0).blk t).view.emb (ix3 (0 : Fin 1) r q)
      = ix3 ((((cfg0.win 2).blk t).view.emb (ix3 u r d)) 0) ((((cfg0.win 2).blk t).view.emb (ix3 u r d)) 1) q := by
    funext a; apply Fin.ext
    match a with
    | ⟨0, _⟩ => show win0_0.index t (0 : Fin 3) * 1 + 1 * (0 : Fin 1).val = win0_2.index t (0 : Fin 3) * 1 + 1 * u.val; omega
    | ⟨1, _⟩ => show win0_0.index t (1 : Fin 3) * 512 + 1 * r.val = win0_2.index t (1 : Fin 3) * 512 + 1 * r.val; omega
    | ⟨2, _⟩ => show win0_0.index t (2 : Fin 3) * 4096 + 1 * q.val = q.val; omega
  have hx : ((cfg0.win 1).blk t).view.emb (ix3 (0 : Fin 1) q d)
      = ix3 ((((cfg0.win 2).blk t).view.emb (ix3 u r d)) 0) q ((((cfg0.win 2).blk t).view.emb (ix3 u r d)) 2) := by
    funext a; apply Fin.ext
    match a with
    | ⟨0, _⟩ => show win0_1.index t (0 : Fin 3) * 1 + 1 * (0 : Fin 1).val = win0_2.index t (0 : Fin 3) * 1 + 1 * u.val; omega
    | ⟨1, _⟩ => show win0_1.index t (1 : Fin 3) * 4096 + 1 * q.val = q.val; omega
    | ⟨2, _⟩ => show win0_1.index t (2 : Fin 3) * 32 + 1 * d.val = win0_2.index t (2 : Fin 3) * 32 + 1 * d.val; omega
  show weights m c (((cfg0.win 0).blk t).view.emb (ix3 (0 : Fin 1) r q))
      * features m c (((cfg0.win 1).blk t).view.emb (ix3 (0 : Fin 1) q d))
    = weights m c (ix3 ((((cfg0.win 2).blk t).view.emb (ix3 u r d)) 0) ((((cfg0.win 2).blk t).view.emb (ix3 u r d)) 1) q)
      * features m c (ix3 ((((cfg0.win 2).blk t).view.emb (ix3 u r d)) 0) q ((((cfg0.win 2).blk t).view.emb (ix3 u r d)) 2))
  rw [hw, hx]
  rfl

/-- An index of the result is in point t's block exactly when each coordinate is in the block's range on its axis. -/
theorem in_block (t : Fin cfg0.N) (i : S8x4096x32.Idx) :
    i ∈ ((cfg0.win 2).blk t).view.set ↔ ∀ a : Fin 3, win0_2.index t a * S1x512x32.size a ≤ (i a).val
      ∧ (i a).val < win0_2.index t a * S1x512x32.size a + S1x512x32.size a := by
  show i ∈ ((View.whole main_v0).slice (win0_2.rect t)).set ↔ _
  rw [View.set_slice_whole, Rect.mem_set_unit]
  exact Iff.rfl

/-- Every index of the result is in some point's block: row n of batch b in the block of batch b and row group n / 512. -/
theorem covered (i : S8x4096x32.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 32 := (i 2).isLt
  obtain ⟨t, ht⟩ := block_of ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [in_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 32 ≤ (i 2).val ∧ (i 2).val < win0_2.index t (2 : Fin 3) * 32 + 32; omega

/-- The result array after the run is the batched product of the weights and the features as launched. -/
theorem result_array (c : Dev nD) :
    (dats m 0 c).arrAt 2 cfg0.N
      = product (m ((c : Thread nD τ).loc main_arg1)) (m ((c : Thread nD τ).loc main_arg0)) :=
  (dats m 0 c).arrAt_eq_of_cover 2 (product (weights m c) (features m c)) (fun t _ => written_block m c t) covered

/-- Every weakly fair execution of the kernel program ends with the result array at the batched product of its
    arguments, and the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Cert.KernelIdeal.Value.run_blocks m ρ)

end Cert.KernelIdeal.ArrayProduct
-- ==== Proof.RefProduct.lean ====
/-
  The reference computes the batched matrix product.

  The reference is one batched `dot_general`: axis 0 of both operands is the batch axis, axis 2 of the weights is
  contracted with axis 1 of the features. Read at the result index (b, n, d) and the contraction position k, the weights
  are therefore read at (b, n, k) and the features at (b, k, d), and the entry is the sum over k of the products. That is
  the entry of the batched product, term by term: only the two operand indices have to be recognised as the coordinate
  triples.
-/
import proofs.«107872_j19172734010021_1_alg».proof.Proof.Gen.ReferenceIdeal.Read
import proofs.«107872_j19172734010021_1_alg».proof.Proof.BatchedProduct

noncomputable section

open scoped BigOperators

namespace Cert.ReferenceIdeal.RefValue

open Cert.ReferenceIdeal Idealize.ShloMosaic Idealize.ShloMosaic.ValueIdx Cert.BatchedProduct

/-- At result index i and contraction position k the weights are read at (i₀, i₁, k). -/
theorem weights_index (i : S8x4096x32.Idx) (k : Fin 4096) : Read.lidx_main_v0 i k = ix3 (i 0) (i 1) k :=
  funext fun e => by match e with | ⟨0, _⟩ => rfl | ⟨1, _⟩ => rfl | ⟨2, _⟩ => rfl

/-- At result index i and contraction position k the features are read at (i₀, k, i₂). -/
theorem features_index (i : S8x4096x32.Idx) (k : Fin 4096) : Read.ridx_main_v0 i k = ix3 (i 0) k (i 2) :=
  funext fun e => by match e with | ⟨0, _⟩ => rfl | ⟨1, _⟩ => rfl | ⟨2, _⟩ => rfl

/-- The reference's result, as a function of the features x and the weights a, is the batched product of a and x. -/
theorem reference_is_product (x : FVec Ideal SX .f32) (a : FVec Ideal SA .f32) :
    Read.val_main_v0 (F := Ideal) x a = product a x := by
  funext i
  rw [Read.val_main_v0_apply]
  show _ = ∑ q : Fin 4096, a (ix3 (i 0) (i 1) q) * x (ix3 (i 0) q (i 2))
  exact Finset.sum_congr rfl fun k _ => by rw [weights_index, features_index]; rfl

end Cert.ReferenceIdeal.RefValue
-- ==== Proof.lean ====
/-
  A batched matrix product, tiled by rows, against the same product written as one contraction.

  The kernel computes out[b] = a[b] · x[b] for 8 batches, a[b] of size 4096 × 4096 and x[b] of size 4096 × 32. Its grid has
  one point per batch and per group of 512 rows of a[b]; a point multiplies its 512 × 4096 rows of a[b] by the whole of x[b]
  into a zero accumulator and writes the 512 × 32 rows of out[b] it owns. The reference contracts axis 2 of a with axis 1 of
  x, batch by batch, in one operation.

  On the extended reals both are, at every index (b, n, d),

      ∑ q, a (b, n, q) · x (b, q, d),

  the kernel because each entry of a point's block is that sum (the change of format before the multiplication changes
  no value, and the zero accumulator adds nothing) and the 64 blocks tile the result; the reference because that sum is
  what a contraction of one axis is. No law of the extended reals is used beyond renaming the index set of the sum, so the
  finiteness of the inputs is not needed for the equality. The kernel's idealization rewrote no operation, so there is
  nothing to preserve. The three runs end with the arguments unchanged: for the two kernel programs by their generated
  frames, for the reference by its run with the result dropped.
-/
import proofs.«107872_j19172734010021_1_alg».proof.Defs
import proofs.«107872_j19172734010021_1_alg».proof.Proof.Gen.Kernel
import proofs.«107872_j19172734010021_1_alg».proof.Proof.Gen.Kernel.Skeleton
import proofs.«107872_j19172734010021_1_alg».proof.Proof.Gen.Kernel.Launch
import proofs.«107872_j19172734010021_1_alg».proof.Proof.Gen.Kernel.Points
import proofs.«107872_j19172734010021_1_alg».proof.Proof.Gen.Kernel.Frame
import proofs.«107872_j19172734010021_1_alg».proof.Proof.Gen.KernelIdeal
import proofs.«107872_j19172734010021_1_alg».proof.Proof.Gen.KernelIdeal.Skeleton
import proofs.«107872_j19172734010021_1_alg».proof.Proof.Gen.KernelIdeal.Launch
import proofs.«107872_j19172734010021_1_alg».proof.Proof.Gen.KernelIdeal.Points
import proofs.«107872_j19172734010021_1_alg».proof.Proof.Gen.KernelIdeal.Frame
import proofs.«107872_j19172734010021_1_alg».proof.Proof.Gen.ReferenceIdeal
import proofs.«107872_j19172734010021_1_alg».proof.Proof.Gen.Pre_finite_inputs
import proofs.«107872_j19172734010021_1_alg».proof.Proof.Gen.KernelIdeal.Value
import proofs.«107872_j19172734010021_1_alg».proof.Proof.Gen.ReferenceIdeal.Run
import proofs.«107872_j19172734010021_1_alg».proof.Proof.Gen.ReferenceIdeal.Read
import proofs.«107872_j19172734010021_1_alg».proof.Proof.ArrayProduct
import proofs.«107872_j19172734010021_1_alg».proof.Proof.RefProduct
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read on the extended reals runs and leaves its arguments unchanged. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the weights and the features, the kernel's result array and the reference's both end
    at the batched product of the weights and the features: the kernel's by its blocks, the reference's because its one
    contraction is that product. -/
theorem algebraic : Cert.algebraic_KernelIdeal_ReferenceIdeal := by
  intro m ρ m' ρ' _ hagree
  refine ⟨fun c => Cert.BatchedProduct.product
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.ArrayProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.reference_is_product,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
